-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x10000 : Shape := ⟨3, ![1, 10000, 10000]⟩
abbrev S1x10000x128 : Shape := ⟨3, ![1, 10000, 128]⟩
abbrev S128x128 : Shape := ⟨2, ![128, 128]⟩
abbrev S128 : Shape := ⟨1, ![128]⟩
abbrev S_ : Shape := ⟨0, ![]⟩

class Facts : Prop where
  bcast_S_S1x10000x10000 : S_.BroadcastsInDim S1x10000x10000 (![] : Fin 0 → Fin S1x10000x10000.rank)
  reducesTo_S1x10000x10000_S_d0_1_2 : S1x10000x10000.ReducesTo [0, 1, 2] S_
  h_S_ : 0 < S_.numel
  bcast_S_S1x10000x128 : S_.BroadcastsInDim S1x10000x128 (![] : Fin 0 → Fin S1x10000x128.rank)
  reducesTo_S1x10000x128_S_d0_1_2 : S1x10000x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg4 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S1x10000x10000 .f32) (main_arg1 : FVec F S1x10000x128 .f32) (main_arg2 : FVec F S128x128 .f32) (main_arg3 : FVec F S128 .f32) (main_arg4 : FVec F S_ .f32) : IVec S_ 1 :=
  let main_v0 : FVec F S1x10000x10000 .f32 := Host.absf main_arg0
  let main_cst : FVec F S_ .f32 := constant S_ .f32 0x7F800000#32
  let main_v1 : FVec F S1x10000x10000 .f32 := broadcastInDim S1x10000x10000 ![] bcast_S_S1x10000x10000 main_cst
  let main_v2 : IVec S1x10000x10000 1 := cmpf .olt main_v0 main_v1
  let main_c : IVec S_ 1 := constantI S_ 1 1#1
  let main_v3 : IVec S_ 1 := (fun x v => Host.reduce IntOp.andi x v reducesTo_S1x10000x10000_S_d0_1_2 h_S_) main_v2 main_c
  let main_v4 : FVec F S1x10000x128 .f32 := Host.absf main_arg1
  let main_cst_0 : FVec F S_ .f32 := constant S_ .f32 0x7F800000#32
  let main_v5 : FVec F S1x10000x128 .f32 := broadcastInDim S1x10000x128 ![] bcast_S_S1x10000x128 main_cst_0
  let main_v6 : IVec S1x10000x128 1 := cmpf .olt main_v4 main_v5
  let main_c_1 : IVec S_ 1 := constantI S_ 1 1#1
  let main_v7 : IVec S_ 1 := (fun x v => Host.reduce IntOp.andi x v reducesTo_S1x10000x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1x10000x10000 : Shape := ⟨3, ![1, 10000, 10000]⟩
abbrev S1x10000x128 : Shape := ⟨3, ![1, 10000, 128]⟩
abbrev S128x128 : Shape := ⟨2, ![128, 128]⟩
abbrev S128 : Shape := ⟨1, ![128]⟩
abbrev S_ : Shape := ⟨0, ![]⟩
abbrev S10000x10000 : Shape := ⟨2, ![10000, 10000]⟩
abbrev S10000x128 : Shape := ⟨2, ![10000, 128]⟩
abbrev S1x128 : Shape := ⟨2, ![1, 128]⟩
abbrev S1x1 : Shape := ⟨2, ![1, 1]⟩
abbrev S512x10000 : Shape := ⟨2, ![512, 10000]⟩
abbrev S512x128 : Shape := ⟨2, ![512, 128]⟩

abbrev nBuf : Space → Nat
  | .hbm => 11
  | .vmem => 8
  | .smem => 0
  | _ => 0

abbrev bufTy : (tb : Table) → Fin (tcTables nBuf tb) → BufTy
  | .hbm, ⟨0, _⟩ => ⟨S1x10000x10000, .f32⟩
  | .hbm, ⟨1, _⟩ => ⟨S1x10000x128, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S10000x10000, .f32⟩
  | .hbm, ⟨6, _⟩ => ⟨S10000x128, .f32⟩
  | .hbm, ⟨7, _⟩ => ⟨S1x128, .f32⟩
  | .hbm, ⟨8, _⟩ => ⟨S1x1, .f32⟩
  | .hbm, ⟨9, _⟩ => ⟨S10000x128, .f32⟩
  | .hbm, ⟨10, _⟩ => ⟨S1x10000x128, .f32⟩
  | .local _ .vmem, ⟨0, _⟩ => ⟨S512x10000, .f32⟩
  | .local _ .vmem, ⟨1, _⟩ => ⟨S512x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S1x1, .f32⟩
  | .local _ .vmem, ⟨6, _⟩ => ⟨S512x128, .f32⟩
  | .local _ .vmem, ⟨7, _⟩ => ⟨S512x128, .f32⟩
  | _, _ => ⟨S1x10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x10000x10000_S10000x10000 : S1x10000x10000.ShapeCasts S10000x10000
  shapeCasts_S1x10000x128_S10000x128 : S1x10000x128.ShapeCasts S10000x128
  shapeCasts_S128_S1x128 : S128.ShapeCasts S1x128
  shapeCasts_S_S1x1 : S_.ShapeCasts S1x1
  inb_S512x10000_S512x10000_0_0 : ∀ a, (![0, 0] : Fin 2 → Nat) a + S512x10000.size a ≤ S512x10000.size a
  h_S512x10000 : 0 < S512x10000.numel
  shapeCasts_S512x10000_S512x10000 : S512x10000.ShapeCasts S512x10000
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x128_S512x128_0_0 : ∀ a, (![0, 0] : Fin 2 → Nat) a + S512x128.size a ≤ S512x128.size a
  h_S512x128 : 0 < S512x128.numel
  shapeCasts_S10000x128_S1x10000x128 : S10000x128.ShapeCasts S1x10000x128
  dot_S512x10000_S10000x128_S512x128_1_0_0_1_n_n_wf : DotDims.WF S512x10000 S10000x128 S512x128 [1] [0] [0] [1] [] []
  dot_S512x128_S128x128_S512x128_1_1_0_0_n_n_wf : DotDims.WF S512x128 S128x128 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x10000.size a < S10000x10000.size a
  hwx0_0 : ∀ i : grid0.Coords, EltTy.bits .f32 = 32 ∨ (Rect.unit (s := S10000x10000) (fun a => cc0_transform_0 i a * S512x10000.size a) (fun a => (Pipeline.Clip.of (cc0_transform_0 i a) (S512x10000.size a) (S10000x10000.size a)).extent (S512x10000.size a)) fun a => Pipeline.Clip.inb (Pipeline.Clip.ok_of (hstart0_0 i a))).WholeWords (EltTy.packing .f32)
  hwxs0_0 : ∀ i : grid0.Coords, EltTy.bits .f32 = 32 ∨ (Rect.unit (s := S512x10000) (fun _ => 0) (fun a => (Pipeline.Clip.of (cc0_transform_0 i a) (S512x10000.size a) (S10000x10000.size a)).extent (S512x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S512x128.size a < S10000x128.size a
  hwx0_5 : ∀ i : grid0.Coords, EltTy.bits .f32 = 32 ∨ (Rect.unit (s := S10000x128) (fun a => cc0_transform_5 i a * S512x128.size a) (fun a => (Pipeline.Clip.of (cc0_transform_5 i a) (S512x128.size a) (S10000x128.size a)).extent (S512x128.size a)) fun a => Pipeline.Clip.inb (Pipeline.Clip.ok_of (hstart0_5 i a))).WholeWords (EltTy.packing .f32)
  hwxs0_5 : ∀ i : grid0.Coords, EltTy.bits .f32 = 32 ∨ (Rect.unit (s := S512x128) (fun _ => 0) (fun a => (Pipeline.Clip.of (cc0_transform_5 i a) (S512x128.size a) (S10000x128.size a)).extent (S512x128.size a)) fun a => (Nat.zero_add _).trans_le (Pipeline.Clip.extent_le (Pipeline.Clip.ok_of (hstart0_5 i a)))).WholeWords (EltTy.packing .f32)

variable [Facts₀]

def dot_S512x10000_S10000x128_S512x128_1_0_0_1_n_n : DotDims S512x10000 S10000x128 S512x128 where
  lhsContracting := [1]
  rhsContracting := [0]
  lhsNonContracting := [0]
  rhsNonContracting := [1]
  lhsBatch := []
  rhsBatch := []
  wf := dot_S512x10000_S10000x128_S512x128_1_0_0_1_n_n_wf
def dot_S512x128_S128x128_S512x128_1_1_0_0_n_n : DotDims S512x128 S128x128 S512x128 where
  lhsContracting := [1]
  rhsContracting := [1]
  lhsNonContracting := [0]
  rhsNonContracting := [0]
  lhsBatch := []
  rhsBatch := []
  wf := dot_S512x128_S128x128_S512x128_1_1_0_0_n_n_wf

abbrev win0_0 : Pipeline.Window sig grid0 :=
  Pipeline.Window.ofSpecClip (Memref.whole main_v0) S512x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v4) S512x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x10000x10000 : Shape := ⟨3, ![1, 10000, 10000]⟩
abbrev S1x10000x128 : Shape := ⟨3, ![1, 10000, 128]⟩
abbrev S128x128 : Shape := ⟨2, ![128, 128]⟩
abbrev S128 : Shape := ⟨1, ![128]⟩
abbrev S_ : Shape := ⟨0, ![]⟩
abbrev S1x1x128 : Shape := ⟨3, ![1, 1, 128]⟩

abbrev nBuf : Space → Nat
  | .hbm => 16
  | .vmem => 0
  | .smem => 0
  | _ => 0

abbrev bufTy : (tb : Table) → Fin (tcTables nBuf tb) → BufTy
  | .hbm, ⟨0, _⟩ => ⟨S1x10000x10000, .f32⟩
  | .hbm, ⟨1, _⟩ => ⟨S1x10000x128, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S1x10000x128, .f32⟩
  | .hbm, ⟨6, _⟩ => ⟨S1x10000x128, .f32⟩
  | .hbm, ⟨7, _⟩ => ⟨S1x1x128, .f32⟩
  | .hbm, ⟨8, _⟩ => ⟨S1x10000x128, .f32⟩
  | .hbm, ⟨9, _⟩ => ⟨S1x10000x128, .f32⟩
  | .hbm, ⟨10, _⟩ => ⟨S_, .f32⟩
  | .hbm, ⟨11, _⟩ => ⟨S1x10000x128, .f32⟩
  | .hbm, ⟨12, _⟩ => ⟨S1x10000x128, .i1⟩
  | .hbm, ⟨13, _⟩ => ⟨S1x10000x128, .f32⟩
  | .hbm, ⟨14, _⟩ => ⟨S1x10000x128, .f32⟩
  | .hbm, ⟨15, _⟩ => ⟨S1x10000x128, .f32⟩
  | _, _ => ⟨S1x10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  bcast_S_S1x10000x128 : S_.BroadcastsInDim S1x10000x128 (![] : Fin 0 → Fin S1x10000x128.rank)
  dot_S1x10000x128_S128x128_S1x10000x128_2_1_01_0_n_n_wf : DotDims.WF S1x10000x128 S128x128 S1x10000x128 [2] [1] [0, 1] [0] [] []
  dot_S1x10000x10000_S1x10000x128_S1x10000x128_2_1_1_2_0_0_wf : DotDims.WF S1x10000x10000 S1x10000x128 S1x10000x128 [2] [1] [1] [2] [0] [0]

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S1x10000x10000_S1x10000x128_S1x10000x128_2_1_1_2_0_0 : DotDims S1x10000x10000 S1x10000x128 S1x10000x128 where
  lhsContracting := [2]
  rhsContracting := [1]
  lhsNonContracting := [1]
  rhsNonContracting := [2]
  lhsBatch := [0]
  rhsBatch := [0]
  wf := dot_S1x10000x10000_S1x10000x128_S1x10000x128_2_1_1_2_0_0_wf

class Facts : Prop extends Facts₀ where

variable [Facts]
-- ==== Proof.Spec.lean ====
/-
  The mathematics of the graph-convolution layer, with no program in sight.

  Arguments: an adjacency array `A` [1, N, N], features `X` [1, N, D], a weight `W` [O, D], a bias `b` [O] and a
  slope `al` (a scalar), N = 10000, D = O = 128, all over the extended reals. The layer is
      out[0, i, o] = prelu_al ( (A · X · Wᵀ)[i, o] + b[o] ),     prelu_al z = z if z ≥ 0 else al · z.
  The triple product can be associated two ways: `aggRef` aggregates the projected features, A · (X · Wᵀ);
  `aggKer` projects the aggregated features, (A · X) · Wᵀ. Over the reals they agree (a finite double sum may be
  summed in either order, and multiplication distributes over it); over the extended reals this needs every entry
  finite, which is what `agg_eq` assumes.
-/
import Idealize.ShloMosaic.PureOps.Ideal
import Idealize.ShloMosaic.Lib.ValueIdx

noncomputable section

namespace Cert.GcnSpec

open Idealize.ShloMosaic Idealize.ShloMosaic.ValueIdx

abbrev SA : Shape := ⟨3, ![1, 10000, 10000]⟩
abbrev SX : Shape := ⟨3, ![1, 10000, 128]⟩
abbrev SW : Shape := ⟨2, ![128, 128]⟩
abbrev SB : Shape := ⟨1, ![128]⟩
abbrev S0 : Shape := ⟨0, ![]⟩

/-- (A · (X · Wᵀ))[i, o]: row `i` of `A` against column `o` of the projected features. -/
def aggRef (A : SA.Idx → EReal) (X : SX.Idx → EReal) (W : SW.Idx → EReal) (i : Fin 10000) (o : Fin 128) : EReal :=
  ∑ j : Fin 10000, A (ix3 0 i j) * ∑ d : Fin 128, X (ix3 0 j d) * W (ix2 o d)

/-- ((A · X) · Wᵀ)[i, o]: row `i` of the aggregated features against row `o` of `W`. -/
def aggKer (A : SA.Idx → EReal) (X : SX.Idx → EReal) (W : SW.Idx → EReal) (i : Fin 10000) (o : Fin 128) : EReal :=
  ∑ d : Fin 128, (∑ j : Fin 10000, A (ix3 0 i j) * X (ix3 0 j d)) * W (ix2 o d)

/-- The parametric rectifier with slope `a`, in the ideal operations' own words: `z` where `z ≥ 0`, else `a · z`. -/
def prelu (a z : EReal) : EReal :=
  Scalar.select (FloatOps.cmpf (F := Ideal) (φ := .f32) .oge z (Ideal.ofBits .f32 0x00000000#32)) z (a * z)

/-- The layer with the reference's association. -/
def outRef (A : SA.Idx → EReal) (X : SX.Idx → EReal) (W : SW.Idx → EReal) (b : SB.Idx → EReal) (al : S0.Idx → EReal) :
    SX.Idx → EReal :=
  fun i => prelu (al ix0) (aggRef A X W (i 1) (i 2) + b (ix1 (i 2)))

/-- The layer with the kernel's association. -/
def outKer (A : SA.Idx → EReal) (X : SX.Idx → EReal) (W : SW.Idx → EReal) (b : SB.Idx → EReal) (al : S0.Idx → EReal) :
    SX.Idx → EReal :=
  fun i => prelu (al ix0) (aggKer A X W (i 1) (i 2) + b (ix1 (i 2)))

end Cert.GcnSpec

end
-- ==== Proof.SpecLaw.lean ====
/-
  The two associations of the triple product A · X · Wᵀ agree when every entry is finite.

  Over the reals, ∑_d (∑_j a_j s_jd) w_d = ∑_j a_j (∑_d s_jd w_d): multiplication distributes over a finite sum and a
  finite double sum may be summed in either order. The inclusion of the reals into the extended reals respects
  products and finite sums, so the same identity holds for extended reals that are images of reals. With every entry
  of A, X and W finite this gives aggKer = aggRef, and the two layers, which differ only in that association, agree.
-/
import proofs.«108231_g34986803593431_cont_8to1_b_28_16_alg».proof.Proof.Spec
import Mathlib.Data.EReal.Basic
import Mathlib.Algebra.BigOperators.Ring.Finset
import Mathlib.Algebra.BigOperators.Group.Finset.Sigma

noncomputable section

namespace Cert.GcnSpec

open Idealize.ShloMosaic Idealize.ShloMosaic.ValueIdx

/-- The inclusion of the reals into the extended reals respects finite sums. -/
theorem coe_sum_real {ι : Type} (t : Finset ι) (f : ι → ℝ) :
    ((∑ k ∈ t, f k : ℝ) : EReal) = ∑ k ∈ t, (f k : EReal) := by
  classical
  induction t using Finset.induction_on with
  | empty => rw [Finset.sum_empty, Finset.sum_empty, EReal.coe_zero]
  | insert a t ha ih => rw [Finset.sum_insert ha, Finset.sum_insert ha, EReal.coe_add, ih]

/-- Reassociation of a triple product of real-valued families, read in the extended reals. -/
theorem assoc_real {J D : Type} [Fintype J] [Fintype D] (a : J → ℝ) (s : J → D → ℝ) (w : D → ℝ) :
    (∑ d, (∑ j, (a j : EReal) * (s j d : EReal)) * (w d : EReal))
      = ∑ j, (a j : EReal) * ∑ d, (s j d : EReal) * (w d : EReal) := by
  have hL : ∀ d, (∑ j, (a j : EReal) * (s j d : EReal)) * (w d : EReal)
      = ((∑ j, a j * s j d * w d : ℝ) : EReal) := by
    intro d
    have h1 : ∀ j, (a j : EReal) * (s j d : EReal) = ((a j * s j d : ℝ) : EReal) :=
      fun j => (EReal.coe_mul _ _).symm
    rw [Finset.sum_congr rfl (fun j _ => h1 j), ← coe_sum_real, ← EReal.coe_mul, Finset.sum_mul]
  have hR : ∀ j, (a j : EReal) * ∑ d, (s j d : EReal) * (w d : EReal)
      = ((∑ d, a j * s j d * w d : ℝ) : EReal) := by
    intro j
    have h1 : ∀ d, (s j d : EReal) * (w d : EReal) = ((s j d * w d : ℝ) : EReal) :=
      fun d => (EReal.coe_mul _ _).symm
    rw [Finset.sum_congr rfl (fun d _ => h1 d), ← coe_sum_real, ← EReal.coe_mul, Finset.mul_sum]
    congr 1
    exact Finset.sum_congr rfl (fun d _ => (mul_assoc _ _ _).symm)
  rw [Finset.sum_congr rfl (fun d _ => hL d), Finset.sum_congr rfl (fun j _ => hR j),
    ← coe_sum_real, ← coe_sum_real, Finset.sum_comm]

/-- With every entry finite, projecting the aggregated features equals aggregating the projected features. -/
theorem agg_eq (A : SA.Idx → EReal) (X : SX.Idx → EReal) (W : SW.Idx → EReal)
    (hA : ∀ i, ∃ r : ℝ, A i = (r : EReal)) (hX : ∀ i, ∃ r : ℝ, X i = (r : EReal))
    (hW : ∀ i, ∃ r : ℝ, W i = (r : EReal))
    (i : Fin 10000) (o : Fin 128) : aggKer A X W i o = aggRef A X W i o := by
  choose fa hfa using hA
  choose fx hfx using hX
  choose fw hfw using hW
  obtain rfl : A = fun k => (fa k : EReal) := funext hfa
  obtain rfl : X = fun k => (fx k : EReal) := funext hfx
  obtain rfl : W = fun k => (fw k : EReal) := funext hfw
  unfold aggKer aggRef
  exact assoc_real (J := Fin 10000) (D := Fin 128)
    (fun j => fa (ix3 0 i j)) (fun j d => fx (ix3 0 j d)) (fun d => fw (ix2 o d))

/-- The layer with the kernel's association equals the layer with the reference's association. -/
theorem outKer_eq_outRef (A : SA.Idx → EReal) (X : SX.Idx → EReal) (W : SW.Idx → EReal)
    (b : SB.Idx → EReal) (al : S0.Idx → EReal)
    (hA : ∀ i, ∃ r : ℝ, A i = (r : EReal)) (hX : ∀ i, ∃ r : ℝ, X i = (r : EReal))
    (hW : ∀ i, ∃ r : ℝ, W i = (r : EReal)) :
    outKer A X W b al = outRef A X W b al := by
  funext i
  have h : aggKer A X W (i 1) (i 2) = aggRef A X W (i 1) (i 2) := agg_eq A X W hA hX hW (i 1) (i 2)
  exact congrArg (fun z => prelu (al ix0) (z + b (ix1 (i 2)))) h

end Cert.GcnSpec

end
-- ==== Proof.Finite.lean ====
/-
  Finiteness of the inputs. The precondition says, of each of the five arguments, that every entry has absolute
  value strictly below +∞, and joins the five answers by `and` into one bit that is 1. Read back: every entry of
  the adjacency array, of the feature array and of the weight array is a real number, neither an infinity nor the
  junk value ⊥.
-/
import proofs.«108231_g34986803593431_cont_8to1_b_28_16_alg».proof.Defs
import proofs.«108231_g34986803593431_cont_8to1_b_28_16_alg».proof.Proof.Gen.Pre_finite_inputs
import proofs.«108231_g34986803593431_cont_8to1_b_28_16_alg».proof.Proof.Gen.KernelIdeal
import Idealize.ShloMosaic.Lib.ReduceAll

noncomputable section

namespace Cert.KernelIdeal.Hand

open Idealize.ShloMosaic Idealize.SL.Sem Cert.KernelIdeal

/-- The rank-0 shape has one index. -/
instance : Subsingleton Cert.Pre_finite_inputs.S_.Idx := ⟨fun a b => funext fun d => d.elim0⟩

/-- The `f32` pattern `0x7F800000` denotes `+∞`. -/
theorem inf_pattern : Ideal.ofBits .f32 0x7F800000#32 = (⊤ : EReal) := by
  simp [Ideal.ofBits, Ideal.ieee]

/-- An extended real whose absolute value `max x (-x)` compares strictly below the pattern of `+∞` is a real:
    at `⊥` and at `⊤` the absolute value is `⊤`, which is not below itself. -/
theorem real_of_abs_lt (x : EReal)
    (h : Ideal.cmp .olt (max x (-x)) (Ideal.ofBits .f32 0x7F800000#32) = 1#1) : ∃ r : ℝ, x = (r : EReal) := by
  rw [inf_pattern] at h
  induction x using EReal.rec with
  | bot => simp [Ideal.cmp] at h
  | coe r => exact ⟨r, rfl⟩
  | top => simp [Ideal.cmp] at h

theorem finite_of_pre (m : (ℓ : Loc nD τ sig) → Buf (Elt Ideal) ℓ)
    (h : Cert.Pre_KernelIdeal (hPre_finite_inputs := Cert.Pre_finite_inputs.Gen.facts) m) (c : Dev nD) :
    (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal)) := by
  have h0 := congrFun (h c) (fun d => d.elim0)
  dsimp only [Cert.Pre_finite_inputs.fn, Cert.Pre_finite_inputs.fn_part1, andi] at h0
  obtain ⟨h1, _⟩ := IntOp.andi_eq_one.1 h0
  obtain ⟨h2, _⟩ := IntOp.andi_eq_one.1 h1
  obtain ⟨h3, hW⟩ := IntOp.andi_eq_one.1 h2
  obtain ⟨hA, hX⟩ := IntOp.andi_eq_one.1 h3
  exact ⟨fun i => real_of_abs_lt _ (Host.reduce_andi_all _ _ _ _ _ hA i),
    fun i => real_of_abs_lt _ (Host.reduce_andi_all _ _ _ _ _ hX i),
    fun i => real_of_abs_lt _ (Host.reduce_andi_all _ _ _ _ _ hW i)⟩

end Cert.KernelIdeal.Hand

end
-- ==== Proof.RefValue.lean ====
/-
  The reference program, read one result element at a time, computes the graph-convolution layer with the
  reference's association:
      out[0, i, o] = prelu_al ( ∑ j, A[0, i, j] * (∑ d, X[0, j, d] * W[o, d]) + b[o] ).
  The index maps of the two contractions and of the broadcasts are identified with indices built from
  coordinates; coordinate 0 of an index into an array whose leading extent is 1 is 0, that extent having one value.
-/
import proofs.«108231_g34986803593431_cont_8to1_b_28_16_alg».proof.Proof.Gen.ReferenceIdeal.Read
import proofs.«108231_g34986803593431_cont_8to1_b_28_16_alg».proof.Proof.Spec

noncomputable section

namespace Cert.ReferenceIdeal.RefValue

open Cert.ReferenceIdeal Cert.ReferenceIdeal.Gen Cert.ReferenceIdeal.Read Idealize.ShloMosaic
  Idealize.ShloMosaic.ValueIdx Idealize.SL.Sem Cert.GcnSpec

/-- The outer contraction reads row `i 1` of the adjacency at column `k`. -/
theorem lidx_v1_eq (i : S1x10000x128.Idx) (k : Fin 10000) :
    lidx_main_v1 i k = (ix3 (0 : Fin 1) (i 1 : Fin 10000) k : S1x10000x10000.Idx) :=
  funext fun a => by
    match a with
    | ⟨0, _⟩ => exact Fin.ext (by show (i 0).val = 0; have h : (i 0).val < 1 := (i 0).isLt; omega)
    | ⟨1, _⟩ => rfl
    | ⟨2, _⟩ => rfl

/-- The inner contraction reads row `j 1` of the features at column `d`. -/
theorem lidx_v0_eq (j : S1x10000x128.Idx) (d : Fin 128) :
    lidx_main_v0 j d = (ix3 (0 : Fin 1) (j 1 : Fin 10000) d : S1x10000x128.Idx) :=
  funext fun a => by
    match a with
    | ⟨0, _⟩ => exact Fin.ext (by show (j 0).val = 0; have h : (j 0).val < 1 := (j 0).isLt; omega)
    | ⟨1, _⟩ => rfl
    | ⟨2, _⟩ => rfl

/-- The inner contraction reads row `j 2` of the weight at column `d`. -/
theorem ridx_v0_eq (j : S1x10000x128.Idx) (d : Fin 128) :
    ridx_main_v0 j d = (ix2 (j 2 : Fin 128) d : S128x128.Idx) :=
  funext fun a => by
    match a with
    | ⟨0, _⟩ => rfl
    | ⟨1, _⟩ => rfl

/-- The bias, broadcast twice, is read at the last coordinate. -/
theorem idx_v2_v3_eq (i : S1x10000x128.Idx) :
    idx_main_v2 (idx_main_v3 i) = (ix1 (i 2 : Fin 128) : S128.Idx) :=
  funext fun a => by
    match a with
    | ⟨0, _⟩ => rfl

/-- The sum the outer contraction computes at `i` is `(A · (X · Wᵀ))[i 1, i 2]`. -/
theorem sum_eq_aggRef (x0 : (⟨S1x10000x10000, .f32⟩ : BufTy).Contents (Elt Ideal)) (x1 : (⟨S1x10000x128, .f32⟩ : BufTy).Contents (Elt Ideal))
    (x2 : (⟨S128x128, .f32⟩ : BufTy).Contents (Elt Ideal)) (i : S1x10000x128.Idx) :
    ∑ k : Fin 10000, x0 (lidx_main_v1 i k) * (val_main_v0 (F := Ideal) x1 x2) (ridx_main_v1 i k)
      = aggRef x0 x1 x2 (i 1) (i 2) := by
  unfold aggRef
  refine Finset.sum_congr rfl fun k _ => ?_
  rw [val_main_v0_apply, lidx_v1_eq]
  congr 1
  refine Finset.sum_congr rfl fun d _ => ?_
  rw [lidx_v0_eq, ridx_v0_eq]
  rfl

theorem ref_eq (x0 : (⟨S1x10000x10000, .f32⟩ : BufTy).Contents (Elt Ideal)) (x1 : (⟨S1x10000x128, .f32⟩ : BufTy).Contents (Elt Ideal))
    (x2 : (⟨S128x128, .f32⟩ : BufTy).Contents (Elt Ideal)) (x3 : (⟨S128, .f32⟩ : BufTy).Contents (Elt Ideal)) (x4 : (⟨S_, .f32⟩ : BufTy).Contents (Elt Ideal)) :
    Cert.ReferenceIdeal.Read.val_main_v9 (F := Ideal) x0 x1 x2 x3 x4 = Cert.GcnSpec.outRef x0 x1 x2 x3 x4 := by
  funext i
  rw [val_main_v9_apply, val_main_v6_apply, val_main_v8_apply, val_main_v4_apply, val_main_v1_apply, val_main_v3_apply,
    val_main_v2_apply, val_main_v5_apply, val_main_cst_apply, val_main_v7_apply, sum_eq_aggRef, idx_v2_v3_eq]
  rfl

end Cert.ReferenceIdeal.RefValue

end
-- ==== Proof.KernelFrame.lean ====
/-
  The frame of the word-level graph-convolution program: at the compiled mesh, for any float values, from any memory
  whose semaphore counters are zero, every weakly fair run of @main terminates, and the five argument arrays — the
  adjacency, the features, the weight, the bias and the slope — end holding what they held at launch.

  The adjacency is staged in blocks of 512 rows over 10000 rows: the twentieth block overhangs the array by 240 rows,
  and its fetch leaves words nothing names in the staging buffer's tail. The matrix product reads the whole staged
  block, so what the body stores in the result's staging buffer cannot be named either. The frame does not need it:
  the result's window is FORGOTTEN (handed to the body at any contents, taken back at any contents), and the run
  concludes only that the input arrays and the buffers no line after the region writes are as the region found them.
-/
import proofs.«108231_g34986803593431_cont_8to1_b_28_16_alg».proof.Proof.Gen.Kernel.Frame
import proofs.«108231_g34986803593431_cont_8to1_b_28_16_alg».proof.Proof.Gen.Kernel.Skeleton
import Idealize.ShloMosaic.Lib.Pipeline.FrameBody
import Idealize.ShloMosaic.Lib.Pipeline.FrameSuffix
import Idealize.ShloMosaic.Lib.Exec
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the one pipeline on core `c`: the arrays as the region finds them; after the body at point `t`
    the adjacency's staging buffer at its block there, filled out past the array's end with the zero word (the window
    is loose: only the rows inside the array are ever stated), each other input's at its block, the result's at
    contents nothing reads (the window is forgotten); the class invariant; nothing owed; full shares. -/
def dats (_ : Fin 1) (c : Dev nD) : Dat τ (Elt F) Unit ℕ (UR sig nD τ) ℕ cfg0 c where
  A w := Gen.V m c (Pipeline.arrRef spec0 w)
  after w t := match w with
    | ⟨0, _⟩ => win0_0.fill (grid0.coords t) (fun _ => Scalar.ofBits .f32 0#32) (Gen.iblk m c 0 t)
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => fun _ => Scalar.ofBits .f32 0#32
  Φ _ := Pipeline.ΦA spec0 c
  q _ := fullShare
  owed _ := 0

/-- The proof data's arrays are the region-entry contents. -/
theorem A_eq (c : Dev nD) (w : Fin cfg0.W) : (dats m 0 c).A w = Gen.V m c (Pipeline.arrRef spec0 w) := by
  dsimp only [dats]

/-- What the body leaves, window by window. -/
theorem after_0 (c : Dev nD) (t : Fin cfg0.N) : (dats m 0 c).after 0 t
    = win0_0.fill (grid0.coords t) (fun _ => Scalar.ofBits .f32 0#32) (Gen.iblk m c 0 t) := by dsimp only [dats]
theorem after_1 (c : Dev nD) (t : Fin cfg0.N) : (dats m 0 c).after 1 t = Gen.iblk m c 1 t := by dsimp only [dats]
theorem after_2 (c : Dev nD) (t : Fin cfg0.N) : (dats m 0 c).after 2 t = Gen.iblk m c 2 t := by dsimp only [dats]
theorem after_3 (c : Dev nD) (t : Fin cfg0.N) : (dats m 0 c).after 3 t = Gen.iblk m c 3 t := by dsimp only [dats]
theorem after_4 (c : Dev nD) (t : Fin cfg0.N) : (dats m 0 c).after 4 t = Gen.iblk m c 4 t := by dsimp only [dats]

/-- What the body finds. The adjacency's window is fetched at every point: its buffer holds the block on the rows
    inside the array and `d`, any, past them. -/
theorem before_0 (c : Dev nD) (t : Fin cfg0.N) (d) :
    (dats m 0 c).before (0 : Fin 6) t d = win0_0.fill (grid0.coords t) d (Gen.iblk m c 0 t) := by
  unfold Dat.before; rw [if_pos (Gen.fetch0_0 t)]
  unfold Dat.fetched Dat.blockOf Gen.iblk; rw [A_eq]
/-- The other inputs' blocks do not move and tile their arrays: each buffer holds its block at every point. -/
theorem before_1 (c : Dev nD) (t : Fin cfg0.N) (d) : (dats m 0 c).before 1 t d = Gen.iblk m c 1 t :=
  Gen.before0_1_of m (dats m 0 c) (A_eq m c 1) (after_1 m c) t d
theorem before_2 (c : Dev nD) (t : Fin cfg0.N) (d) : (dats m 0 c).before 2 t d = Gen.iblk m c 2 t :=
  Gen.before0_2_of m (dats m 0 c) (A_eq m c 2) (after_2 m c) t d
theorem before_3 (c : Dev nD) (t : Fin cfg0.N) (d) : (dats m 0 c).before 3 t d = Gen.iblk m c 3 t :=
  Gen.before0_3_of m (dats m 0 c) (A_eq m c 3) (after_3 m c) t d
theorem before_4 (c : Dev nD) (t : Fin cfg0.N) (d) : (dats m 0 c).before 4 t d = Gen.iblk m c 4 t :=
  Gen.before0_4_of m (dats m 0 c) (A_eq m c 4) (after_4 m c) t d

/-! ## The body's triple -/

set_option maxHeartbeats 1000000 in
/-- The kernel body on whole staging memrefs, the five inputs' at contents `x0` … `x4` and the result's at anything:
    five whole loads, a dead whole load of the result's buffer and one whole store to it. It runs to the
    continuation holding the inputs' as they were and the result's at SOME contents — the stored payload, two matrix
    products of the whole staged operands, which nothing here names. -/
theorem sound_kernel (c : Dev nD) (E : Set ℕ) (i : grid0.Coords)
    (arg1 : Memref sig .tc .vmem S512x10000 .f32) (harg1 : arg1.IsWhole)
    (arg2 : Memref sig .tc .vmem S10000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x1 .f32) (harg5 : arg5.IsWhole)
    (arg6 : Memref sig .tc .vmem S512x128 .f32) (harg6 : arg6.IsWhole)
    (x0 : Vec F S512x10000 .f32) (x1 : Vec F S10000x128 .f32) (x2 : Vec F S128x128 .f32)
    (x3 : Vec F S1x128 .f32) (x4 : Vec F S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ (∃ X, owns (c : Thread nD τ) arg6 fullShare X)) -∗ K ⟨⟩))
      ⊢ wp frame (wpE (defs₀ (F := F)) Variants.none c none) E
          (cc0__gcn_body i arg1 harg1 arg2 harg2 arg3 harg3 arg4 harg4 arg5 harg5 arg6 harg6) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; iexists _; isplitr
  swap; · iexact H5
  ipureintro; rfl

/-! ## The body obligation, the result's window forgotten -/

/-- The windows the frame forgets: the result's. -/
abbrev fgt : Fin cfg0.W → Bool := fun w => w.val == 5

/-- What the body is called with at point `t`: the invariant, what the core owes, each input's current buffer at what it
    then holds, the result's at any contents; -/
def bodyPre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d))
    ∗ (∃ d, owns (c : Thread nD τ) (Gen.st0_3 t) fullShare ((dats m 0 c).before 3 t d))
    ∗ (∃ d, owns (c : Thread nD τ) (Gen.st0_4 t) fullShare ((dats m 0 c).before 4 t d))
    ∗ (∃ X, owns (c : Thread nD τ) (Gen.st0_5 t) fullShare X))

/-- and what it returns: the adjacency's buffer stated on the rows inside the array only (the window is loose), the
    other inputs' whole, the result's at any contents. -/
def bodyPost (c : Dev nD) (t : Fin cfg0.N) : sProp 𝕄 :=
  iprop((dats m 0 c).Φ t.succ ∗ (dats m 0 c).owesAt () t.succ
    ∗ (∃ d, owns (c : Thread nD τ) (Gen.st0_0 t) fullShare
        (win0_0.fill (grid0.coords t) d (win0_0.cut (grid0.coords t) ((dats m 0 c).after 0 t))))
    ∗ owns (c : Thread nD τ) (Gen.st0_1 t) fullShare ((dats m 0 c).after 1 t)
    ∗ owns (c : Thread nD τ) (Gen.st0_2 t) fullShare ((dats m 0 c).after 2 t)
    ∗ owns (c : Thread nD τ) (Gen.st0_3 t) fullShare ((dats m 0 c).after 3 t)
    ∗ owns (c : Thread nD τ) (Gen.st0_4 t) fullShare ((dats m 0 c).after 4 t)
    ∗ (∃ X, owns (c : Thread nD τ) (Gen.st0_5 t) fullShare X))

/-- The body at any point: the adjacency's buffer arrives holding its block filled out with some `d` past the array's
    end and is handed back so — cut back to the rows inside the array that is the block, whatever filled it —; the
    other inputs' buffers arrive and leave holding their blocks; the result's arrives at any contents and leaves at
    any contents; the invariant and what the core owes pass through unread. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, win0_0.cut_fill]
  iintro ⟨HΦ, Ho, ⟨%d0, H0⟩, ⟨%d1, H1⟩, ⟨%d2, H2⟩, ⟨%d3, H3⟩, ⟨%d4, H4⟩, ⟨%X5, H5⟩⟩
  iapply (sound_kernel c Set.univ (grid0.coords t) _ _ _ _ _ _ _ _ _ _ _ _
    (win0_0.fill (grid0.coords t) d0 (Gen.iblk m c 0 t)) (Gen.iblk m c 1 t) (Gen.iblk m c 2 t) (Gen.iblk m c 3 t)
    (Gen.iblk m c 4 t) _)
  isplitl [H0]; · iexact H0
  isplitl [H1]; · iexact H1
  isplitl [H2]; · iexact H2
  isplitl [H3]; · iexact H3
  isplitl [H4]; · iexact H4
  isplitl [H5]; · iexists X5; iexact H5
  iintro ⟨H0, H1, H2, H3, H4, H5⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  iexact H5

/-- The library's body obligation with the result's window forgotten, at every point: no point is idle, the
    adjacency's window is loose, the others (the forgotten one apart) are not — the obligation's `match`es reduce to
    `sound_body`'s statement. -/
theorem body_obligation (c : Dev nD) :
    BodyObligationLoose (dats (F := F) m 0 c) (defs₀ (F := F)) Variants.none () Set.univ fgt := fun t => by
  rw [Gen.bigSep_W0, Gen.bigSep_W0]
  exact sound_body m c t

/-! ## The run and the frame -/

/-- The one line after the region, the reshape of the result, writes only its own result buffer. -/
theorem sfx_writes : ∀ ops ∈ ([Gen.hostOps1] : List (List (HloOp τ sig (Elt F)))), ∀ op ∈ ops,
    ∀ b : Ref sig .tc, Proc.devRef .tc b ∈ op.writes → b ∈ ({main_v5} : Finset (Ref sig .tc)) := by
  intro ops hops op hop b hb
  simp only [List.mem_cons, List.mem_nil_iff, or_false] at hops
  rcases hops with rfl
  simp only [Gen.hostOps1, List.mem_cons, List.mem_nil_iff, or_false] at hop
  rcases hop with rfl
  simp only [StableHlo.reshape_writes, Finset.mem_singleton] at hb
  exact Finset.mem_singleton.mpr (Proc.devRef_injective _ hb)

set_option backward.isDefEq.respectTransparency.types false in
/-- At the compiled mesh, for any values, from any memory with zero counters: every weakly fair execution of @main on
    the TensorCores terminates, and every final state has each input array of the pipeline at its entry contents and
    every other unscoped buffer but the last reshape's result as the region found it. -/
theorem run_main : θ_run defs (onTc (τ := τ) (main (F := F))) (s₀ m ρ)
    (Pipeline.RDat.FramePostR cfg0 (fun c => (dats m 0 c).toRForget fgt) {main_v5}
      (fun c b => Gen.V0 m c (Proc.devRef .tc b))) :=
  Pipeline.RDat.θ_run_frame_around_T cfgs (0 : Fin 1) Gen.launch0 defs₀ Variants.none
    (fun c => (dats m 0 c).toRForget fgt) {main_v5} m ρ main
    (hbody := fun c => (body_obligation m c).toRForget)
    (hshare := fun c => (dats m 0 c).share_full fun _ => rfl)
    (howed := fun _ _ => rfl)
    (V₀ := Gen.V0 m) (opss := [Gen.hostOps1])
    (hsub := Gen.sfx_sub) (hfresh := Gen.sfx_fresh) (hkeep := Gen.sfx_keeps)
    (hT := sfx_writes)
    (hmain := Gen.hmain m Variants.none)
    (hA := fun c w => A_eq m c w)
    (hΦ := fun _ _ => rfl)

/-- THE FRAME, at any `F`: every weakly fair run of @main terminates with the five argument arrays at their launch
    contents. The weight is an array of the pipeline, an input: the run's first clause gives its entry contents. The
    other four are staged through reshaped copies, so no window names them and no line after the region writes them:
    the run's second clause gives what the region found. Before the region nothing writes any of the five. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Finset.mem_sdiff.mpr ⟨Pipeline.mem_restRefs_of main_arg0 (by decide) (by decide),
        fun e => absurd (Finset.mem_singleton.mp e) (by decide)⟩)).trans (Gen.V_main_arg0 m c),
      ((h c).2 main_arg1 (Finset.mem_sdiff.mpr ⟨Pipeline.mem_restRefs_of main_arg1 (by decide) (by decide),
        fun e => absurd (Finset.mem_singleton.mp e) (by decide)⟩)).trans (Gen.V_main_arg1 m c),
      (Pipeline.RDat.FramePostR.arr_in h c 2 rfl).trans ((A_eq m c 2).trans (Gen.V_main_arg2 m c)),
      ((h c).2 main_arg3 (Finset.mem_sdiff.mpr ⟨Pipeline.mem_restRefs_of main_arg3 (by decide) (by decide),
        fun e => absurd (Finset.mem_singleton.mp e) (by decide)⟩)).trans (Gen.V_main_arg3 m c),
      ((h c).2 main_arg4 (Finset.mem_sdiff.mpr ⟨Pipeline.mem_restRefs_of main_arg4 (by decide) (by decide),
        fun e => absurd (Finset.mem_singleton.mp e) (by decide)⟩)).trans (Gen.V_main_arg4 m c)⟩)
    (run_main m ρ)

/-- info: 'Cert.Kernel.Hand.frame' depends on axioms: [propext, Classical.choice, Quot.sound] -/
#guard_msgs in #print axioms frame

end Cert.Kernel.Hand

end
-- ==== Proof.KIStep.lean ====
/-
  One grid step of the graph-convolution kernel, as a triple: on six whole staging buffers — a 512-row tile of the
  adjacency, the features, the weight, the bias row, the slope, and the result tile — the step reads the first five,
  leaves them as they were, and overwrites the sixth with the step's one value, a function of the five it read.
-/
import proofs.«108231_g34986803593431_cont_8to1_b_28_16_alg».proof.Proof.Gen.KernelIdeal.Frame
import proofs.«108231_g34986803593431_cont_8to1_b_28_16_alg».proof.Proof.Gen.KernelIdeal.Skeleton
import Idealize.ShloMosaic.Lib.Pipeline.Kit
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev r_adj : Rect S512x10000 := Rect.unit (s := S512x10000) ![0, 0] S512x10000.size inb_S512x10000_S512x10000_0_0
abbrev r_seq : Rect S10000x128 := Rect.unit (s := S10000x128) ![0, 0] S10000x128.size inb_S10000x128_S10000x128_0_0
abbrev r_w : Rect S128x128 := Rect.unit (s := S128x128) ![0, 0] S128x128.size inb_S128x128_S128x128_0_0
abbrev r_b : Rect S1x128 := Rect.unit (s := S1x128) ![0, 0] S1x128.size inb_S1x128_S1x128_0_0
abbrev r_al : Rect S1x1 := Rect.unit (s := S1x1) ![0, 0] S1x1.size inb_S1x1_S1x1_0_0
abbrev r_out : Rect S512x128 := Rect.unit (s := S512x128) ![0, 0] S512x128.size inb_S512x128_S512x128_0_0

/-- What the step leaves in the result tile's buffer, as the one store over the five loads. -/
def stepOut (x0 : Vec F S512x10000 .f32) (x1 : Vec F S10000x128 .f32) (x2 : Vec F S128x128 .f32) (x3 : Vec F S1x128 .f32) (x4 : Vec F S1x1 .f32) : Vec F S512x128 .f32 :=
  View.canon [⟨r_out, k0_pay1 (View.ld x0 r_adj) (View.ld x1 r_seq) (View.ld x2 r_w) (View.ld x3 r_b) (View.ld x4 r_al)⟩]

theorem cover_out (p0 : Vec F S512x128 .f32) (y : S512x128.Idx) :
    ∃ pc ∈ ([⟨r_out, p0⟩] : List (View.Piece (Elt F) S512x128 .f32)), y ∈ pc.1.set :=
  View.cover_of_tiled [⟨r_out, p0⟩] S512x128.size (by rfl) y

set_option maxHeartbeats 1000000 in
theorem sound_kernel (c : Dev nD) (E : Set ℕ) (i : grid0.Coords)
    (arg1 : Memref sig .tc .vmem S512x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1x1 .f32) (harg5 : arg5.IsWhole) (arg6 : Memref sig .tc .vmem S512x128 .f32) (harg6 : arg6.IsWhole)
    (x0 : Vec F S512x10000 .f32) (x1 : Vec F S10000x128 .f32) (x2 : Vec F S128x128 .f32) (x3 : Vec F S1x128 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (stepOut x0 x1 x2 x3 x4)) -∗ K ⟨⟩))
      ⊢ wp frame (wpE (defs₀ (F := F)) Variants.none c none) E
          (cc0__gcn_body i arg1 harg1 arg2 harg2 arg3 harg3 arg4 harg4 arg5 harg5 arg6 harg6) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.KernelIdeal.Hand

end
-- ==== Proof.KIBody.lean ====
/-
  The proof data of the graph-convolution pipeline, and one grid step run on it.

  The adjacency is streamed in tiles of 512 rows over 20 grid steps; 20 · 512 = 10240 > 10000, so the last tile overhangs
  the array by 240 rows. A fetch of a tile lands only the rows inside the array; the staging rows past the array's end
  hold words nothing names (`d` below). `adjTile d` is the staged tile: the array's rows where the fetch landed them,
  `d` elsewhere. The features, the weight, the bias row and the slope are staged whole, once. `outTile d` is what the
  step then leaves in the result's staging buffer: the step's value on that staged tile. Only its rows inside the array
  are ever written back.
-/
import proofs.«108231_g34986803593431_cont_8to1_b_28_16_alg».proof.Proof.Gen.KernelIdeal.Frame
import proofs.«108231_g34986803593431_cont_8to1_b_28_16_alg».proof.Proof.Gen.KernelIdeal.Skeleton
import proofs.«108231_g34986803593431_cont_8to1_b_28_16_alg».proof.Proof.KIStep
import Idealize.ShloMosaic.Lib.Pipeline.Kit
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The step's value is the payload of its one store: the store covers the whole buffer, the loads read whole buffers. -/
theorem stepOut_eq (x0 : Vec F S512x10000 .f32) (x1 : Vec F S10000x128 .f32) (x2 : Vec F S128x128 .f32) (x3 : Vec F S1x128 .f32) (x4 : Vec F S1x1 .f32) :
    stepOut x0 x1 x2 x3 x4 = k0_pay1 x0 x1 x2 x3 x4 := by
  have hz : (![0, 0] : Fin 2 → Nat) = fun _ => 0 := funext fun a => by fin_cases a <;> rfl
  unfold stepOut
  rw [View.canon_unit_zero hz]
  simp only [View.ld_unit_zero (S := S512x10000) hz, View.ld_unit_zero (S := S10000x128) hz, View.ld_unit_zero (S := S128x128) hz,
    View.ld_unit_zero (S := S1x128) hz, View.ld_unit_zero (S := S1x1) hz]

/-- The staged adjacency tile at step `t`: the array's rows where the fetch lands them, `d` past the array's end. -/
def adjTile (c : Dev nD) (t : Fin cfg0.N) (d : S512x10000.Idx → Elt F .f32) : S512x10000.Idx → Elt F .f32 :=
  win0_0.fill (grid0.coords t) d (iblk m c 0 t)

/-- What step `t` leaves in the result's staging buffer, from the staged tile. -/
def outTile (c : Dev nD) (t : Fin cfg0.N) (d : S512x10000.Idx → Elt F .f32) : S512x128.Idx → Elt F .f32 :=
  k0_pay1 (adjTile m c t d) (iblk m c 1 t) (iblk m c 2 t) (iblk m c 3 t) (iblk m c 4 t)

/-- The filler a closed form needs past the array's end: the zero word. Nothing reads it. -/
abbrev zfill : S512x10000.Idx → Elt F .f32 := fun _ => Scalar.ofBits .f32 0#32

/-- The proof data: the arrays as the region finds them; after a step the five inputs' buffers hold their blocks and the
    result's holds the step's value. -/
def dats (_ : Fin 1) (c : Dev nD) : Dat τ (Elt F) Unit ℕ (UR sig nD τ) ℕ cfg0 c where
  A w := V m c (Pipeline.arrRef spec0 w)
  after w t := match w with
    | ⟨0, _⟩ => adjTile m c t zfill
    | ⟨1, _⟩ => iblk m c 1 t
    | ⟨2, _⟩ => iblk m c 2 t
    | ⟨3, _⟩ => iblk m c 3 t
    | ⟨4, _⟩ => iblk m c 4 t
    | ⟨5, _⟩ => outTile m c t zfill
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = adjTile m c t zfill := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outTile m c t zfill := by dsimp only [dats]

/-- The adjacency tile is fetched at every step: its buffer holds the staged tile, whatever was there. -/
theorem before_0 (c : Dev nD) (t : Fin cfg0.N) (d) : (dats m 0 c).before 0 t d = adjTile m c t d := by
  unfold Dat.before; rw [if_pos (fetch0_0 t)]; rfl
/-- The four small operands are staged once and found in place at every step. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
/-- The result's buffer is written back after every step, so each step finds it at contents nothing names. -/
theorem before_5 (c : Dev nD) (t : Fin cfg0.N) (d) : (dats m 0 c).before 5 t d = d := by
  unfold Dat.before
  rw [if_neg (show ¬((cfg0.win 5).fetch t = true) by
    have : (cfg0.win 5).fetch t = false := (by decide +kernel : ∀ t : Fin grid0.N, win0_5.fetch t = false) t
    rw [this]; exact Bool.false_ne_true)]
  split
  · rfl
  · exact if_pos (flush0_5 _)

/-- One step on the staged buffers: the five inputs come back as they were, the result's buffer holds the step's value. -/
theorem sound_body (c : Dev nD) (t : Fin cfg0.N) (d0 : S512x10000.Idx → Elt F .f32) (d5 : S512x128.Idx → Elt F .f32) (K : PUnit → sProp 𝕄) :
    iprop(owns (c : Thread nD τ) (st0_0 t) fullShare (adjTile m c t d0) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare d5
        ∗ (iprop(owns (c : Thread nD τ) (st0_0 t) fullShare (adjTile m c t d0) ∗ owns (c : Thread nD τ) (st0_1 t) fullShare (iblk m c 1 t)
            ∗ owns (c : Thread nD τ) (st0_2 t) fullShare (iblk m c 2 t) ∗ owns (c : Thread nD τ) (st0_3 t) fullShare (iblk m c 3 t)
            ∗ owns (c : Thread nD τ) (st0_4 t) fullShare (iblk m c 4 t) ∗ owns (c : Thread nD τ) (st0_5 t) fullShare (outTile m c t d0)) -∗ K ⟨⟩))
      ⊢ wp frame (wpE (defs₀ (F := F)) Variants.none c none) Set.univ (bodyAt0 t) K := by
  unfold bodyAt0 outTile
  rw [← stepOut_eq]
  iintro ⟨H0, H1, H2, H3, H4, H5, Hk⟩
  iapply (sound_kernel c Set.univ (grid0.coords t) _ _ _ _ _ _ _ _ _ _ _ _ (adjTile m c t d0) (iblk m c 1 t) (iblk m c 2 t) (iblk m c 3 t) (iblk m c 4 t) K)
  isplitl [H0]; · iexact H0
  isplitl [H1]; · iexact H1
  isplitl [H2]; · iexact H2
  isplitl [H3]; · iexact H3
  isplitl [H4]; · iexact H4
  isplitl [H5]; · iexists _; iexact H5
  iexact Hk

end Cert.KernelIdeal.Hand

end
-- ==== Proof.KIPay.lean ====
/-
  The idealized kernel's one payload, read at an index, over the extended reals.

  The payload is  select (z ≥ 0) z (a · z)  with  z = ((tile · features) · weightᵀ) + bias row,  where the two
  products are contractions into a zero accumulator, the bias is a [1,128] row repeated down 512 rows, and the slope
  a is the one entry of a [1,1] vector. Read at row p, column q this is the parametric rectifier of
      ∑ d, (∑ k, tile[p,k] · features[k,d]) · weight[q,d]  +  bias[0,q].
  Each contraction is read as a sum over its one contracted coordinate (mm_adj_seq, mm_wt), the row broadcast and
  the extraction of the slope as plain reads (bias_at, slope_at); everything else is pointwise.
-/
import proofs.«108231_g34986803593431_cont_8to1_b_28_16_alg».proof.Proof.Gen.KernelIdeal.Skeleton
import proofs.«108231_g34986803593431_cont_8to1_b_28_16_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## The first contraction: tile [512,10000] against features [10000,128], left axis 1 with right axis 0 -/

theorem lhs_adj_0 (i : S512x128.Idx) (q : dot_S512x10000_S10000x128_S512x128_1_0_0_1_n_n.contr.Idx) :
    (dot_S512x10000_S10000x128_S512x128_1_0_0_1_n_n.lhsIdx i q 0).val = (i 0).val := by
  unfold DotDims.lhsIdx
  rw [dif_neg (show ¬(0 : Fin S512x10000.rank) ∈ dot_S512x10000_S10000x128_S512x128_1_0_0_1_n_n.lhsBatch by decide), dif_pos (show (0 : Fin S512x10000.rank) ∈ dot_S512x10000_S10000x128_S512x128_1_0_0_1_n_n.lhsNonContracting by decide)]
  rfl
theorem lhs_adj_1 (i : S512x128.Idx) (q : dot_S512x10000_S10000x128_S512x128_1_0_0_1_n_n.contr.Idx) :
    (dot_S512x10000_S10000x128_S512x128_1_0_0_1_n_n.lhsIdx i q 1).val = (q ⟨0, by decide⟩).val :=
  dot_S512x10000_S10000x128_S512x128_1_0_0_1_n_n.lhsIdx_val_of_single rfl i q
theorem rhs_adj_0 (i : S512x128.Idx) (q : dot_S512x10000_S10000x128_S512x128_1_0_0_1_n_n.contr.Idx) :
    (dot_S512x10000_S10000x128_S512x128_1_0_0_1_n_n.rhsIdx i q 0).val = (q ⟨0, by decide⟩).val :=
  dot_S512x10000_S10000x128_S512x128_1_0_0_1_n_n.rhsIdx_val_of_single rfl i q
theorem rhs_adj_1 (i : S512x128.Idx) (q : dot_S512x10000_S10000x128_S512x128_1_0_0_1_n_n.contr.Idx) :
    (dot_S512x10000_S10000x128_S512x128_1_0_0_1_n_n.rhsIdx i q 1).val = (i 1).val := by
  unfold DotDims.rhsIdx
  rw [dif_neg (show ¬(1 : Fin S10000x128.rank) ∈ dot_S512x10000_S10000x128_S512x128_1_0_0_1_n_n.rhsBatch by decide), dif_pos (show (1 : Fin S10000x128.rank) ∈ dot_S512x10000_S10000x128_S512x128_1_0_0_1_n_n.rhsNonContracting by decide)]
  rfl

/-- (tile · features)[p, d] = ∑ k, tile[p, k] · features[k, d]. -/
theorem mm_adj_seq (a : FVec Ideal S512x10000 .f32) (b : FVec Ideal S10000x128 .f32) (p : Fin 512) (d : Fin 128) :
    FloatOps.matmul dot_S512x10000_S10000x128_S512x128_1_0_0_1_n_n none a b (constant (F := Ideal) S512x128 .f32 0x00000000#32) (ix2 p d)
      = ∑ k : Fin 10000, a (ix2 p k) * b (ix2 k d) := by
  rw [Ideal.matmul_constant_zero_apply, ← Equiv.sum_comp (ValueIdx.contrEquiv1 dot_S512x10000_S10000x128_S512x128_1_0_0_1_n_n 10000 rfl rfl).symm]
  refine Finset.sum_congr rfl fun k _ => ?_
  have hk := ValueIdx.contrEquiv1_symm_val dot_S512x10000_S10000x128_S512x128_1_0_0_1_n_n 10000 rfl rfl k
  have el : dot_S512x10000_S10000x128_S512x128_1_0_0_1_n_n.lhsIdx (ix2 p d) ((ValueIdx.contrEquiv1 dot_S512x10000_S10000x128_S512x128_1_0_0_1_n_n 10000 rfl rfl).symm k) = ix2 p k := funext fun a => Fin.ext (by
    match a with
    | ⟨0, _⟩ => exact lhs_adj_0 _ _
    | ⟨1, _⟩ => exact (lhs_adj_1 _ _).trans hk)
  have er : dot_S512x10000_S10000x128_S512x128_1_0_0_1_n_n.rhsIdx (ix2 p d) ((ValueIdx.contrEquiv1 dot_S512x10000_S10000x128_S512x128_1_0_0_1_n_n 10000 rfl rfl).symm k) = ix2 k d := funext fun a => Fin.ext (by
    match a with
    | ⟨0, _⟩ => exact (rhs_adj_0 _ _).trans hk
    | ⟨1, _⟩ => exact rhs_adj_1 _ _)
  rw [el, er]

/-! ## The second contraction: [512,128] against the weight [128,128], left axis 1 with right axis 1 (times the transpose) -/

theorem lhs_wt_0 (i : S512x128.Idx) (q : dot_S512x128_S128x128_S512x128_1_1_0_0_n_n.contr.Idx) :
    (dot_S512x128_S128x128_S512x128_1_1_0_0_n_n.lhsIdx i q 0).val = (i 0).val := by
  unfold DotDims.lhsIdx
  rw [dif_neg (show ¬(0 : Fin S512x128.rank) ∈ dot_S512x128_S128x128_S512x128_1_1_0_0_n_n.lhsBatch by decide), dif_pos (show (0 : Fin S512x128.rank) ∈ dot_S512x128_S128x128_S512x128_1_1_0_0_n_n.lhsNonContracting by decide)]
  rfl
theorem lhs_wt_1 (i : S512x128.Idx) (q : dot_S512x128_S128x128_S512x128_1_1_0_0_n_n.contr.Idx) :
    (dot_S512x128_S128x128_S512x128_1_1_0_0_n_n.lhsIdx i q 1).val = (q ⟨0, by decide⟩).val :=
  dot_S512x128_S128x128_S512x128_1_1_0_0_n_n.lhsIdx_val_of_single rfl i q
theorem rhs_wt_0 (i : S512x128.Idx) (q : dot_S512x128_S128x128_S512x128_1_1_0_0_n_n.contr.Idx) :
    (dot_S512x128_S128x128_S512x128_1_1_0_0_n_n.rhsIdx i q 0).val = (i 1).val := by
  unfold DotDims.rhsIdx
  rw [dif_neg (show ¬(0 : Fin S128x128.rank) ∈ dot_S512x128_S128x128_S512x128_1_1_0_0_n_n.rhsBatch by decide), dif_pos (show (0 : Fin S128x128.rank) ∈ dot_S512x128_S128x128_S512x128_1_1_0_0_n_n.rhsNonContracting by decide)]
  rfl
theorem rhs_wt_1 (i : S512x128.Idx) (q : dot_S512x128_S128x128_S512x128_1_1_0_0_n_n.contr.Idx) :
    (dot_S512x128_S128x128_S512x128_1_1_0_0_n_n.rhsIdx i q 1).val = (q ⟨0, by decide⟩).val :=
  dot_S512x128_S128x128_S512x128_1_1_0_0_n_n.rhsIdx_val_of_single rfl i q

/-- (m · weightᵀ)[p, q] = ∑ d, m[p, d] · weight[q, d]. -/
theorem mm_wt (a : FVec Ideal S512x128 .f32) (w : FVec Ideal S128x128 .f32) (p : Fin 512) (q : Fin 128) :
    FloatOps.matmul dot_S512x128_S128x128_S512x128_1_1_0_0_n_n none a w (constant (F := Ideal) S512x128 .f32 0x00000000#32) (ix2 p q)
      = ∑ d : Fin 128, a (ix2 p d) * w (ix2 q d) := by
  rw [Ideal.matmul_constant_zero_apply, ← Equiv.sum_comp (ValueIdx.contrEquiv1 dot_S512x128_S128x128_S512x128_1_1_0_0_n_n 128 rfl rfl).symm]
  refine Finset.sum_congr rfl fun k _ => ?_
  have hk := ValueIdx.contrEquiv1_symm_val dot_S512x128_S128x128_S512x128_1_1_0_0_n_n 128 rfl rfl k
  have el : dot_S512x128_S128x128_S512x128_1_1_0_0_n_n.lhsIdx (ix2 p q) ((ValueIdx.contrEquiv1 dot_S512x128_S128x128_S512x128_1_1_0_0_n_n 128 rfl rfl).symm k) = ix2 p k := funext fun a => Fin.ext (by
    match a with
    | ⟨0, _⟩ => exact lhs_wt_0 _ _
    | ⟨1, _⟩ => exact (lhs_wt_1 _ _).trans hk)
  have er : dot_S512x128_S128x128_S512x128_1_1_0_0_n_n.rhsIdx (ix2 p q) ((ValueIdx.contrEquiv1 dot_S512x128_S128x128_S512x128_1_1_0_0_n_n 128 rfl rfl).symm k) = ix2 q k := funext fun a => Fin.ext (by
    match a with
    | ⟨0, _⟩ => exact rhs_wt_0 _ _
    | ⟨1, _⟩ => exact (rhs_wt_1 _ _).trans hk)
  rw [el, er]

/-! ## The bias row and the slope -/

/-- The [1,128] row repeated down 512 rows, read at (p, q), is the row at (0, q). -/
theorem bias_at (v : FVec Ideal S1x128 .f32) (p : Fin 512) (q : Fin 128) :
    broadcastTo S512x128 v broadcasts_S1x128_S512x128 (ix2 p q) = v (ix2 (0 : Fin 1) q) :=
  broadcastTo_apply v broadcasts_S1x128_S512x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The entry extracted at position [0, 0] of a [1,1] vector is its entry at (0, 0). -/
theorem slope_at (v : FVec Ideal S1x1 .f32) :
    extractAt ![0, 0] v inpos_S1x1_p0_0 = v (ix2 (0 : Fin 1) (0 : Fin 1)) := by
  unfold extractAt
  refine congrArg v (funext fun a => ?_)
  match a with
  | ⟨0, _⟩ => rfl
  | ⟨1, _⟩ => rfl

/-! ## The value before the rectifier, and the payload -/

/-- ((tile · features) · weightᵀ + bias row)[p, q], with the identity casts the kernel writes. -/
theorem pre_apply (x0 : FVec Ideal S512x10000 .f32) (x1 : FVec Ideal S10000x128 .f32) (x2 : FVec Ideal S128x128 .f32)
    (x3 : FVec Ideal S1x128 .f32) (p : Fin 512) (q : Fin 128) :
    addf (φ := .f32)
        (matmul (φ₁ := .f32) (φ₂ := .f32) dot_S512x128_S128x128_S512x128_1_1_0_0_n_n none
          (matmul (φ₁ := .f32) (φ₂ := .f32) dot_S512x10000_S10000x128_S512x128_1_0_0_1_n_n none
            (shapeCast S512x10000 x0 shapeCasts_S512x10000_S512x10000) (shapeCast S10000x128 x1 shapeCasts_S10000x128_S10000x128)
            (constant (F := Ideal) S512x128 .f32 0x00000000#32))
          x2 (constant (F := Ideal) S512x128 .f32 0x00000000#32))
        (broadcastTo S512x128 (shapeCast S1x128 x3 shapeCasts_S1x128_S1x128) broadcasts_S1x128_S512x128) (ix2 p q)
      = (∑ d : Fin 128, (∑ k : Fin 10000, x0 (ix2 p k) * x1 (ix2 k d)) * x2 (ix2 q d)) + x3 (ix2 0 q) := by
  rw [shapeCast_self, shapeCast_self, shapeCast_self, addf_apply]
  simp only [matmul]
  rw [mm_wt, bias_at]
  exact congrArg (· + x3 (ix2 0 q)) (Finset.sum_congr rfl fun d _ => by rw [mm_adj_seq])

theorem pay_apply (x0 : Vec Ideal S512x10000 .f32) (x1 : Vec Ideal S10000x128 .f32) (x2 : Vec Ideal S128x128 .f32)
    (x3 : Vec Ideal S1x128 .f32) (x4 : Vec Ideal S1x1 .f32) (p : Fin 512) (q : Fin 128) :
    k0_pay1 (F := Ideal) x0 x1 x2 x3 x4 (ix2 p q)
      = Cert.GcnSpec.prelu (x4 (ix2 0 0))
          ((∑ d : Fin 128, (∑ k : Fin 10000, x0 (ix2 p k) * x1 (ix2 k d)) * x2 (ix2 q d)) + x3 (ix2 0 q)) := by
  rw [← pre_apply x0 x1 x2 x3 p q, ← slope_at x4]
  rfl

end Cert.KernelIdeal.Hand

end
-- ==== Proof.KIRun.lean ====
/-
  The graph-convolution pipeline run to its end at the ideal instance: every grid step meets the proof data, so the
  whole program terminates, its arguments unchanged, with the result array holding what the steps wrote back.

  The one thing to see is that the rows past the adjacency's end do no harm. Row `p` of the step's value depends on
  the staged tile only through its row `p`: the first product pairs row `p` of the tile with the features' columns, and
  everything after it is row by row. The rows written back are rows inside the array, where the staged tile holds the
  array's own rows whatever filled the rest. So the written part of the step's value does not depend on the filler.
-/
import proofs.«108231_g34986803593431_cont_8to1_b_28_16_alg».proof.Proof.Gen.KernelIdeal.Frame
import proofs.«108231_g34986803593431_cont_8to1_b_28_16_alg».proof.Proof.Gen.KernelIdeal.Skeleton
import proofs.«108231_g34986803593431_cont_8to1_b_28_16_alg».proof.Proof.KIBody
import proofs.«108231_g34986803593431_cont_8to1_b_28_16_alg».proof.Proof.KIPay
import proofs.«108231_g34986803593431_cont_8to1_b_28_16_alg».proof.Proof.Spec
import Idealize.ShloMosaic.Lib.ValueIdx
import Idealize.ShloMosaic.Lib.Pipeline.Kit
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The two clipped windows cut alike (both are 512-row blocks over 10000 rows), and the adjacency's tile keeps all its
    10000 columns. -/
theorem cuts (t : Fin cfg0.N) : win0_0.xsize (grid0.coords t) 0 = win0_5.xsize (grid0.coords t) 0 ∧ win0_0.xsize (grid0.coords t) 1 = 10000
    ∧ win0_5.xsize (grid0.coords t) 1 = 128 :=
  (by decide +kernel : ∀ t : Fin grid0.N, win0_0.xsize (grid0.coords t) 0 = win0_5.xsize (grid0.coords t) 0 ∧ win0_0.xsize (grid0.coords t) 1 = 10000
    ∧ win0_5.xsize (grid0.coords t) 1 = 128) t

/-- A row of the staged tile that lies inside the array is the array's row, whatever fills the rest. -/
theorem adjTile_row (c : Dev nD) (t : Fin cfg0.N) (d d' : S512x10000.Idx → Elt Ideal .f32) (p : Fin 512) (k : Fin 10000)
    (hp : p.val < win0_5.xsize (grid0.coords t) 0) : adjTile m c t d (ix2 p k) = adjTile m c t d' (ix2 p k) := by
  have hm : win0_0.moved (grid0.coords t) (ix2 p k) = true := (win0_0.moved_iff _ _).mpr fun a => match a with
    | ⟨0, _⟩ => lt_of_lt_of_eq hp (cuts t).1.symm
    | ⟨1, _⟩ => lt_of_lt_of_eq k.isLt (cuts t).2.1.symm
  unfold adjTile Window.fill
  rw [dif_pos hm, dif_pos hm]

/-- The written-back part of a step's value does not depend on what fills the staged tile past the array's end. -/
theorem outTile_cut (c : Dev nD) (t : Fin cfg0.N) (d d' : S512x10000.Idx → Elt Ideal .f32) :
    win0_5.cut (grid0.coords t) (outTile m c t d) = win0_5.cut (grid0.coords t) (outTile m c t d') := by
  funext j
  have hp : (j 0).val < 512 := Nat.lt_of_lt_of_le (j 0).isLt (win0_5.xsize_le (grid0.coords t) 0)
  have hq : (j 1).val < 128 := Nat.lt_of_lt_of_le (j 1).isLt (win0_5.xsize_le (grid0.coords t) 1)
  have hx : win0_5.xinj (grid0.coords t) j = ix2 (⟨(j 0).val, hp⟩ : Fin 512) (⟨(j 1).val, hq⟩ : Fin 128) := by
    funext a
    match a with
    | ⟨0, _⟩ => rfl
    | ⟨1, _⟩ => rfl
  show outTile m c t d (win0_5.xinj (grid0.coords t) j) = outTile m c t d' (win0_5.xinj (grid0.coords t) j)
  rw [hx]
  unfold outTile
  rw [pay_apply, pay_apply]
  refine congrArg (fun z => Cert.GcnSpec.prelu _ (z + _)) (Finset.sum_congr rfl fun dd _ => congrArg (· * _) (Finset.sum_congr rfl fun k _ => congrArg (· * _) ?_))
  exact adjTile_row m c t d d' _ k (j 0).isLt

/-- Every grid step meets the proof data. The adjacency's and the result's windows are stated on the rows inside the array. -/
theorem body_obligation (c : Dev nD) : BodyObligationLoose (dats (F := Ideal) m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4, before_5 m c t d5]
  iapply (sound_body (F := Ideal) m c t d0 d5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  rw [after_0, after_1, after_2, after_3, after_4, after_5]
  have h0 : win0_0.fill (grid0.coords t) d0 (win0_0.cut (grid0.coords t) (adjTile m c t zfill)) = adjTile m c t d0 := by
    unfold adjTile; rw [win0_0.cut_fill]
  have h5 : win0_5.fill (grid0.coords t) (outTile m c t d0) (win0_5.cut (grid0.coords t) (outTile m c t zfill)) = outTile m c t d0 :=
    win0_5.fill_congr_cut _ (outTile_cut m c t d0 zfill)
  isplitl [H0]
  · iexists d0
    change _ ⊢ owns (c : Thread nD τ) (st0_0 t) fullShare (win0_0.fill (grid0.coords t) d0 (win0_0.cut (grid0.coords t) (adjTile m c t zfill)))
    rw [h0]; try iexact H0
  isplitl [H1]; · iexact H1
  isplitl [H2]; · iexact H2
  isplitl [H3]; · iexact H3
  isplitl [H4]; · iexact H4
  · iexists outTile m c t d0
    change _ ⊢ owns (c : Thread nD τ) (st0_5 t) fullShare (win0_5.fill (grid0.coords t) (outTile m c t d0) (win0_5.cut (grid0.coords t) (outTile m c t zfill)))
    rw [h5]; try iexact H5

set_option backward.isDefEq.respectTransparency.types false in
/-- The whole program at the ideal instance: it terminates; every windowed array ends at what the write-backs make of it,
    every other buffer at what the closing reshape makes of the region's exit. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The idealized kernel's frame: it runs to the end and leaves its five arguments as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.KIHost.lean ====
/-
  The host side of the idealized kernel program: what the arrays the pipeline reads hold when the region is entered,
  and what the program's result holds after the last host operation.

  Before the region four reshapes drop or add unit axes: the adjacency [1, N, N] is read as [N, N], the features
  [1, N, D] as [N, D], the bias [O] as [1, O], the slope (a scalar) as [1, 1]; the weight is passed as it is. A reshape
  keeps the row-major position of every element, so each reshaped array at an index is the argument at the same
  coordinates with the unit axes dropped or added. After the region one reshape reads the region's result [N, O] as
  [1, N, O].
-/
import proofs.«108231_g34986803593431_cont_8to1_b_28_16_alg».proof.Proof.KIBody
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.ValueIdx
open Idealize.ShloMosaic.TcCoe Idealize.SL.Sem Idealize.ShloMosaic.StableHlo

variable {F : FTy → Type} [FloatOps F]

variable (m : (ℓ : Loc nD τ sig) → Buf (Elt F) ℓ)

/-- The adjacency as the region finds it: the argument with its unit axis dropped. -/
theorem V_main_v0_eq (c : Dev nD) :
    (V m c main_v0 : S10000x10000.Idx → Elt F .f32)
      = shapeCast S10000x10000 (m ((c.tc : Thread nD τ).loc main_arg0) : S1x10000x10000.Idx → Elt F .f32) shapeCasts_S1x10000x10000_S10000x10000 := by
  show StableHlo.after hostOps0 (fun b => m (c, b)) (Proc.devRef .tc main_v0) = _
  after_results
  rfl

/-- The features as the region finds them: the argument with its unit axis dropped. -/
theorem V_main_v1_eq (c : Dev nD) :
    (V m c main_v1 : S10000x128.Idx → Elt F .f32)
      = shapeCast S10000x128 (m ((c.tc : Thread nD τ).loc main_arg1) : S1x10000x128.Idx → Elt F .f32) shapeCasts_S1x10000x128_S10000x128 := by
  show StableHlo.after hostOps0 (fun b => m (c, b)) (Proc.devRef .tc main_v1) = _
  after_results
  rfl

/-- The bias as the region finds it: the argument with a unit axis added. -/
theorem V_main_v2_eq (c : Dev nD) :
    (V m c main_v2 : S1x128.Idx → Elt F .f32)
      = shapeCast S1x128 (m ((c.tc : Thread nD τ).loc main_arg3) : S128.Idx → Elt F .f32) shapeCasts_S128_S1x128 := by
  show StableHlo.after hostOps0 (fun b => m (c, b)) (Proc.devRef .tc main_v2) = _
  after_results
  rfl

/-- The slope as the region finds it: the scalar argument with two unit axes added. -/
theorem V_main_v3_eq (c : Dev nD) :
    (V m c main_v3 : S1x1.Idx → Elt F .f32)
      = shapeCast S1x1 (m ((c.tc : Thread nD τ).loc main_arg4) : S_.Idx → Elt F .f32) shapeCasts_S_S1x1 := by
  show StableHlo.after hostOps0 (fun b => m (c, b)) (Proc.devRef .tc main_v3) = _
  after_results
  rfl

theorem V_adj (c : Dev nD) (i j : Fin 10000) :
    (V m c main_v0 : S10000x10000.Idx → Elt F .f32) (ix2 i j)
      = (m ((c.tc : Thread nD τ).loc main_arg0) : S1x10000x10000.Idx → Elt F .f32) (ix3 0 i j) := by
  rw [V_main_v0_eq]
  exact shapeCast_1ab_ab_apply _ _ i j

theorem V_seq (c : Dev nD) (j : Fin 10000) (d : Fin 128) :
    (V m c main_v1 : S10000x128.Idx → Elt F .f32) (ix2 j d)
      = (m ((c.tc : Thread nD τ).loc main_arg1) : S1x10000x128.Idx → Elt F .f32) (ix3 0 j d) := by
  rw [V_main_v1_eq]
  exact shapeCast_1ab_ab_apply _ _ j d

theorem V_w (c : Dev nD) : V m c main_arg2 = m ((c.tc : Thread nD τ).loc main_arg2) := V_main_arg2 m c

theorem V_bias (c : Dev nD) (q : Fin 128) :
    (V m c main_v2 : S1x128.Idx → Elt F .f32) (ix2 0 q)
      = (m ((c.tc : Thread nD τ).loc main_arg3) : S128.Idx → Elt F .f32) (ix1 q) := by
  rw [V_main_v2_eq]
  exact shapeCast_a_1a_apply _ _ 0 q

theorem V_alpha (c : Dev nD) :
    (V m c main_v3 : S1x1.Idx → Elt F .f32) (ix2 0 0)
      = (m ((c.tc : Thread nD τ).loc main_arg4) : S_.Idx → Elt F .f32) ix0 := by
  rw [V_main_v3_eq]
  refine shapeCast_apply _ _ _ _ ?_
  show (S_.rowMajor (ix0 : S_.Idx)).val = (S1x1.rowMajor (ix2 (0 : Fin 1) (0 : Fin 1) : S1x1.Idx)).val
  have h1 : (S_.rowMajor (ix0 : S_.Idx)).val < S_.numel := (S_.rowMajor (ix0 : S_.Idx)).isLt
  have h2 : (S1x1.rowMajor (ix2 (0 : Fin 1) (0 : Fin 1) : S1x1.Idx)).val < S1x1.numel :=
    (S1x1.rowMajor (ix2 (0 : Fin 1) (0 : Fin 1) : S1x1.Idx)).isLt
  have e1 : S_.numel = 1 := by decide
  have e2 : S1x1.numel = 1 := by decide
  omega

/-- The program's result: the region's result array read with a unit axis in front. -/
theorem tail_out (c : Dev nD) (G : S10000x128.Idx → Elt F .f32) (hG : (dats m 0 c).arrAt 5 cfg0.N = G) (i : Fin 10000) (o : Fin 128) :
    (Pipeline.afterTail₀ cfgs (dats m) 0 (V0 m) [hostOps1] c main_v5 : S1x10000x128.Idx → Elt F .f32) (ix3 0 i o) = G (ix2 i o) := by
  have e : (Pipeline.afterTail₀ cfgs (dats m) 0 (V0 m) [hostOps1] c main_v5 : S1x10000x128.Idx → Elt F .f32)
      = shapeCast S1x10000x128 G shapeCasts_S10000x128_S1x10000x128 := by
    unfold Pipeline.afterTail₀
    show StableHlo.after hostOps1 _ (Proc.devRef .tc main_v5) = _
    after_results
    rw [show Pipeline.withArrays (cfgs 0).spec c (V0 m c) (fun w => (dats m 0 c).arrAt w (cfgs 0).N) (Proc.devRef .tc main_v4) = G from
      (Pipeline.withArrays_arr spec0 launch0.win.arr_inj c _ _ 5).trans hG]
    rfl
  rw [e]
  exact shapeCast_ab_1ab_apply _ _ 0 i o

end Cert.KernelIdeal.Hand

end
-- ==== Proof.KIValue.lean ====
/-
  What the graph-convolution kernel leaves in its result array at the ideal instance: the layer's value with the
  kernel's association, out[i, o] = prelu_alpha( ((adj · seq) · Wᵀ)[i, o] + bias[o] ), at every one of the 10000 rows.

  Step `t` writes back rows 512 t … of the result, as many as lie inside the array (512, or 272 at the last step). Row `p`
  of what it writes is the step's value at row `p` of the staged tile, which is row 512 t + p of the adjacency; the
  other operands are staged whole. So each step writes its block of ONE function of the arguments, and the twenty
  blocks cover the rows: row `r` lies in block `r / 512`.
-/
import proofs.«108231_g34986803593431_cont_8to1_b_28_16_alg».proof.Proof.Gen.KernelIdeal.Frame
import proofs.«108231_g34986803593431_cont_8to1_b_28_16_alg».proof.Proof.Gen.KernelIdeal.Skeleton
import proofs.«108231_g34986803593431_cont_8to1_b_28_16_alg».proof.Proof.KIRun
import proofs.«108231_g34986803593431_cont_8to1_b_28_16_alg».proof.Proof.KIHost
import Idealize.ShloMosaic.Lib.Pipeline.Kit
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- The layer's value, with the kernel's association, over the [10000, 128] result array. -/
def outArr (c : Dev nD) : S10000x128.Idx → Elt Ideal .f32 := fun i =>
  Cert.GcnSpec.outKer (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (ix3 0 (i 0) (i 1))

/-- Where the blocks sit: the adjacency's and the result's block at step `t` start at row 512 t, column 0; the four small
    operands' blocks are the whole arrays. -/
theorem idx_facts (t : Fin cfg0.N) : win0_0.index t 0 = t.val ∧ win0_0.index t 1 = 0 ∧ win0_5.index t 0 = t.val ∧ win0_5.index t 1 = 0
    ∧ win0_1.index t 0 = 0 ∧ win0_1.index t 1 = 0 ∧ win0_2.index t 0 = 0 ∧ win0_2.index t 1 = 0
    ∧ win0_3.index t 0 = 0 ∧ win0_3.index t 1 = 0 ∧ win0_4.index t 0 = 0 ∧ win0_4.index t 1 = 0 :=
  (by decide +kernel : ∀ t : Fin grid0.N, win0_0.index t 0 = t.val ∧ win0_0.index t 1 = 0 ∧ win0_5.index t 0 = t.val ∧ win0_5.index t 1 = 0
    ∧ win0_1.index t 0 = 0 ∧ win0_1.index t 1 = 0 ∧ win0_2.index t 0 = 0 ∧ win0_2.index t 1 = 0
    ∧ win0_3.index t 0 = 0 ∧ win0_3.index t 1 = 0 ∧ win0_4.index t 0 = 0 ∧ win0_4.index t 1 = 0) t

/-- How many rows of block `t` lie inside the array: up to row 10000. -/
theorem rows_facts (t : Fin cfg0.N) : t.val * 512 + win0_5.xsize (grid0.coords t) 0 = min ((t.val + 1) * 512) 10000 :=
  (by decide +kernel : ∀ t : Fin grid0.N, t.val * 512 + win0_5.xsize (grid0.coords t) 0 = min ((t.val + 1) * 512) 10000) t

/-- The staged operands, element by element, are the arguments' elements. -/
theorem seq_apply (c : Dev nD) (t : Fin cfg0.N) (k : Fin 10000) (d : Fin 128) :
    iblk m c 1 t (ix2 k d) = m ((c.tc : Thread nD τ).loc main_arg1) (ix3 0 k d) := by
  rw [← V_seq m c k d]
  show V m c main_v1 (((cfg0.win 1).blk t).view.emb (ix2 k d)) = V m c main_v1 (ix2 k d)
  refine congrArg _ (funext fun a => Fin.ext ?_)
  match a with
  | ⟨0, _⟩ => show win0_1.index t 0 * 10000 + 1 * k.val = k.val; rw [(idx_facts t).2.2.2.2.1]; omega
  | ⟨1, _⟩ => show win0_1.index t 1 * 128 + 1 * d.val = d.val; rw [(idx_facts t).2.2.2.2.2.1]; omega

theorem w_apply (c : Dev nD) (t : Fin cfg0.N) (q d : Fin 128) :
    iblk m c 2 t (ix2 q d) = m ((c.tc : Thread nD τ).loc main_arg2) (ix2 q d) := by
  rw [← V_w m c]
  show V m c main_arg2 (((cfg0.win 2).blk t).view.emb (ix2 q d)) = V m c main_arg2 (ix2 q d)
  refine congrArg _ (funext fun a => Fin.ext ?_)
  match a with
  | ⟨0, _⟩ => show win0_2.index t 0 * 128 + 1 * q.val = q.val; rw [(idx_facts t).2.2.2.2.2.2.1]; omega
  | ⟨1, _⟩ => show win0_2.index t 1 * 128 + 1 * d.val = d.val; rw [(idx_facts t).2.2.2.2.2.2.2.1]; omega

theorem bias_apply (c : Dev nD) (t : Fin cfg0.N) (q : Fin 128) :
    iblk m c 3 t (ix2 0 q) = m ((c.tc : Thread nD τ).loc main_arg3) (ix1 q) := by
  rw [← V_bias m c q]
  show V m c main_v2 (((cfg0.win 3).blk t).view.emb (ix2 0 q)) = V m c main_v2 (ix2 0 q)
  refine congrArg _ (funext fun a => Fin.ext ?_)
  match a with
  | ⟨0, _⟩ => show win0_3.index t 0 * 1 + 1 * 0 = 0; rw [(idx_facts t).2.2.2.2.2.2.2.2.1]
  | ⟨1, _⟩ => show win0_3.index t 1 * 128 + 1 * q.val = q.val; rw [(idx_facts t).2.2.2.2.2.2.2.2.2.1]; omega

theorem alpha_apply (c : Dev nD) (t : Fin cfg0.N) :
    iblk m c 4 t (ix2 0 0) = m ((c.tc : Thread nD τ).loc main_arg4) ix0 := by
  rw [← V_alpha m c]
  show V m c main_v3 (((cfg0.win 4).blk t).view.emb (ix2 0 0)) = V m c main_v3 (ix2 0 0)
  refine congrArg _ (funext fun a => Fin.ext ?_)
  match a with
  | ⟨0, _⟩ => show win0_4.index t 0 * 1 + 1 * 0 = 0; rw [(idx_facts t).2.2.2.2.2.2.2.2.2.2.1]
  | ⟨1, _⟩ => show win0_4.index t 1 * 1 + 1 * 0 = 0; rw [(idx_facts t).2.2.2.2.2.2.2.2.2.2.2]

/-- Row `p` of the staged adjacency tile at step `t`, when it lies inside the array, is row 512 t + p of the adjacency. -/
theorem adj_apply (c : Dev nD) (t : Fin cfg0.N) (d : S512x10000.Idx → Elt Ideal .f32) (p : Fin 512) (k : Fin 10000)
    (hp : p.val < win0_5.xsize (grid0.coords t) 0) (r : Fin 10000) (hr : r.val = t.val * 512 + p.val) :
    adjTile m c t d (ix2 p k) = m ((c.tc : Thread nD τ).loc main_arg0) (ix3 0 r k) := by
  have hm : win0_0.moved (grid0.coords t) (ix2 p k) = true := (win0_0.moved_iff _ _).mpr fun a => match a with
    | ⟨0, _⟩ => lt_of_lt_of_eq hp (cuts t).1.symm
    | ⟨1, _⟩ => lt_of_lt_of_eq k.isLt (cuts t).2.1.symm
  unfold adjTile Window.fill
  rw [dif_pos hm, ← V_adj m c r k]
  show V m c main_v0 (((cfg0.win 0).blk t).view.emb _) = V m c main_v0 (ix2 r k)
  refine congrArg _ (funext fun a => Fin.ext ?_)
  match a with
  | ⟨0, _⟩ => show win0_0.index t 0 * 512 + 1 * p.val = r.val; rw [(idx_facts t).1, hr]; omega
  | ⟨1, _⟩ => show win0_0.index t 1 * 10000 + 1 * k.val = k.val; rw [(idx_facts t).2.1]; omega

/-- What step `t` writes back is its block of the layer's value. -/
theorem flushed_eq (c : Dev nD) (t : Fin cfg0.N) :
    (dats m 0 c).flushed 5 t = ((cfg0.win 5).blk t).view.read (Elt Ideal) (outArr m c) := by
  funext j
  have hp : (j 0).val < 512 := Nat.lt_of_lt_of_le (j 0).isLt (win0_5.xsize_le (grid0.coords t) 0)
  have hq : (j 1).val < 128 := Nat.lt_of_lt_of_le (j 1).isLt (win0_5.xsize_le (grid0.coords t) 1)
  have hrow : t.val * 512 + (j 0).val < 10000 := by
    have h1 := rows_facts t
    have h2 : (j 0).val < win0_5.xsize (grid0.coords t) 0 := (j 0).isLt
    have h3 : t.val * 512 + win0_5.xsize (grid0.coords t) 0 ≤ 10000 := by rw [h1]; exact Nat.min_le_right _ _
    omega
  have hx : win0_5.xinj (grid0.coords t) j = ix2 (⟨(j 0).val, hp⟩ : Fin 512) (⟨(j 1).val, hq⟩ : Fin 128) := by
    funext a
    match a with
    | ⟨0, _⟩ => rfl
    | ⟨1, _⟩ => rfl
  have he : ((cfg0.win 5).blk t).view.emb j = ix2 (⟨t.val * 512 + (j 0).val, hrow⟩ : Fin 10000) (⟨(j 1).val, hq⟩ : Fin 128) :=
    funext fun a => Fin.ext (by
      match a with
      | ⟨0, _⟩ => show win0_5.index t 0 * 512 + 1 * (j 0).val = t.val * 512 + (j 0).val; rw [(idx_facts t).2.2.1]; omega
      | ⟨1, _⟩ => show win0_5.index t 1 * 128 + 1 * (j 1).val = (j 1).val; rw [(idx_facts t).2.2.2.1]; omega)
  show (cfg0.win 5).cut (grid0.coords t) ((dats m 0 c).after 5 t) j = outArr m c (((cfg0.win 5).blk t).view.emb j)
  rw [after_5, he]
  show outTile m c t zfill (win0_5.xinj (grid0.coords t) j) = _
  rw [hx]
  unfold outTile outArr Cert.GcnSpec.outKer Cert.GcnSpec.aggKer
  rw [pay_apply, alpha_apply m c t, bias_apply m c t]
  refine congrArg (fun z => Cert.GcnSpec.prelu _ (z + _)) (Finset.sum_congr rfl fun dd _ => ?_)
  rw [w_apply m c t]
  refine congrArg (· * _) (Finset.sum_congr rfl fun k _ => ?_)
  rw [seq_apply m c t, adj_apply m c t zfill ⟨(j 0).val, hp⟩ k (j 0).isLt ⟨t.val * 512 + (j 0).val, hrow⟩ rfl]

/-- An index of the result array lies in step `t`'s block iff, axis by axis, it lies in the block's part inside the array. -/
theorem mem_blk (t : Fin cfg0.N) (i : S10000x128.Idx) :
    i ∈ ((cfg0.win 5).blk t).view.set ↔ ∀ a, win0_5.index t a * win0_5.size a ≤ (i a : Nat) ∧ (i a : Nat) < win0_5.index t a * win0_5.size a + win0_5.xsize (grid0.coords t) a := by
  show i ∈ ((View.whole main_v4).slice (win0_5.rect t)).set ↔ _
  rw [View.set_slice_whole, Rect.mem_set_unit]

/-- The blocks cover the rows: row `r` lies in block `r / 512`. -/
theorem cover (i : S10000x128.Idx) : ∃ t : Fin cfg0.N, (cfg0.win 5).flush t = true ∧ i ∈ ((cfg0.win 5).blk t).view.set := by
  have h0 : (i 0).val < 10000 := (i 0).isLt
  have h1 : (i 1).val < 128 := (i 1).isLt
  refine ⟨⟨(i 0).val / 512, by rw [show cfg0.N = 20 from N_0]; omega⟩, flush0_5 _, ?_⟩
  rw [mem_blk]
  intro a
  match a with
  | ⟨0, _⟩ =>
    have hi := (idx_facts ⟨(i 0).val / 512, by rw [show cfg0.N = 20 from N_0]; omega⟩).2.2.1
    have hr := rows_facts ⟨(i 0).val / 512, by rw [show cfg0.N = 20 from N_0]; omega⟩
    show win0_5.index _ 0 * 512 ≤ (i 0).val ∧ (i 0).val < win0_5.index _ 0 * 512 + win0_5.xsize _ 0
    rw [hi]
    simp only at hr ⊢
    omega
  | ⟨1, _⟩ =>
    have hi := (idx_facts ⟨(i 0).val / 512, by rw [show cfg0.N = 20 from N_0]; omega⟩).2.2.2.1
    have hc := (cuts ⟨(i 0).val / 512, by rw [show cfg0.N = 20 from N_0]; omega⟩).2.2
    show win0_5.index _ 1 * 128 ≤ (i 1).val ∧ (i 1).val < win0_5.index _ 1 * 128 + win0_5.xsize _ 1
    rw [hi, hc]
    omega

/-- The result array after the run is the layer's value with the kernel's association. -/
theorem final_out (c : Dev nD) : (dats m 0 c).arrAt 5 cfg0.N = outArr m c :=
  (dats m 0 c).arrAt_eq_of_cover 5 (outArr m c) (fun t _ => flushed_eq m c t) cover

/-- And the program's result, the closing reshape of that array, is the layer's value over [1, 10000, 128]. -/
theorem result_eq (c : Dev nD) :
    Pipeline.afterTail₀ cfgs (dats m) 0 (V0 m) [hostOps1] c main_v5
      = Cert.GcnSpec.outKer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine funext fun (i : S1x10000x128.Idx) => ?_
  have h0 : (i 0).val < 1 := (i 0).isLt
  have e : i = ix3 (0 : Fin 1) (i 1) (i 2) := by
    funext a
    match a with
    | ⟨0, _⟩ => exact Fin.ext (by show (i 0).val = 0; omega)
    | ⟨1, _⟩ => rfl
    | ⟨2, _⟩ => rfl
  rw [e]
  exact tail_out m c (outArr m c) (final_out m c) (i 1) (i 2)

/-- The idealized kernel, run to its end: the result is the layer's value with the kernel's association, and the five
    arguments are as they were. -/
theorem run_value (ρ : Dev nD → PrngReg) : θ_run defs (onTc (τ := τ) (main (F := Ideal))) ⟨m, fun _ => 0, ρ⟩ (fun r => ∀ c : Dev nD,
      r.2.mem ((c.tc : Thread nD τ).loc main_v5)
        = Cert.GcnSpec.outKer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.lean ====
/-
  A graph-convolution layer, out = prelu_alpha(adj · seq · Wᵀ + bias), computed two ways: a tiled kernel that multiplies
  each 512-row tile of the adjacency by the features first and by Wᵀ second, and a reference that projects the features by
  Wᵀ first and aggregates second. Over the extended reals with every input finite the two triple products are one number
  (a finite double sum of reals, summed in either order), and the bias, the comparison with zero, the product with the
  slope and the selection are the same operations on both sides. The kernel's last tile overhangs the adjacency by 240
  rows; those rows of the staging buffer hold words nothing names, reach only rows of the result tile that are never
  written back, and so reach no kept result.

  The claims: each program runs to its end and leaves its arguments unchanged (the word-level kernel's frame says nothing
  of the result's contents; the idealized kernel's run names them); the idealization rewrote nothing; and the idealized
  kernel and the idealized reference end with equal results.
-/
import proofs.«108231_g34986803593431_cont_8to1_b_28_16_alg».proof.Defs
import proofs.«108231_g34986803593431_cont_8to1_b_28_16_alg».proof.Proof.Gen.Kernel
import proofs.«108231_g34986803593431_cont_8to1_b_28_16_alg».proof.Proof.Gen.Kernel.Skeleton
import proofs.«108231_g34986803593431_cont_8to1_b_28_16_alg».proof.Proof.Gen.Kernel.Launch
import proofs.«108231_g34986803593431_cont_8to1_b_28_16_alg».proof.Proof.Gen.Kernel.Points
import proofs.«108231_g34986803593431_cont_8to1_b_28_16_alg».proof.Proof.Gen.Kernel.Frame
import proofs.«108231_g34986803593431_cont_8to1_b_28_16_alg».proof.Proof.Gen.KernelIdeal
import proofs.«108231_g34986803593431_cont_8to1_b_28_16_alg».proof.Proof.Gen.KernelIdeal.Skeleton
import proofs.«108231_g34986803593431_cont_8to1_b_28_16_alg».proof.Proof.Gen.KernelIdeal.Launch
import proofs.«108231_g34986803593431_cont_8to1_b_28_16_alg».proof.Proof.Gen.KernelIdeal.Points
import proofs.«108231_g34986803593431_cont_8to1_b_28_16_alg».proof.Proof.Gen.KernelIdeal.Frame
import proofs.«108231_g34986803593431_cont_8to1_b_28_16_alg».proof.Proof.Gen.ReferenceIdeal
import proofs.«108231_g34986803593431_cont_8to1_b_28_16_alg».proof.Proof.Gen.Pre_finite_inputs
import proofs.«108231_g34986803593431_cont_8to1_b_28_16_alg».proof.Proof.Gen.ReferenceIdeal.Run
import proofs.«108231_g34986803593431_cont_8to1_b_28_16_alg».proof.Proof.Gen.ReferenceIdeal.Read
import proofs.«108231_g34986803593431_cont_8to1_b_28_16_alg».proof.Proof.Spec
import proofs.«108231_g34986803593431_cont_8to1_b_28_16_alg».proof.Proof.SpecLaw
import proofs.«108231_g34986803593431_cont_8to1_b_28_16_alg».proof.Proof.Finite
import proofs.«108231_g34986803593431_cont_8to1_b_28_16_alg».proof.Proof.RefValue
import proofs.«108231_g34986803593431_cont_8to1_b_28_16_alg».proof.Proof.KernelFrame
import proofs.«108231_g34986803593431_cont_8to1_b_28_16_alg».proof.Proof.KIRun
import proofs.«108231_g34986803593431_cont_8to1_b_28_16_alg».proof.Proof.KIValue
import Idealize.ShloMosaic.Adequacy
import Idealize.ShloMosaic.Init

noncomputable section

namespace Cert.Proof

open Idealize.ShloMosaic Idealize.SL.Sem

/-- The word-level kernel runs to its end and leaves its arguments unchanged. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the layer's value: the kernel at (adj · seq) · Wᵀ, the reference at adj · (seq · Wᵀ),
    which agree because every entry of adj, seq and W is a real number. -/
theorem algebraic : Cert.algebraic_KernelIdeal_ReferenceIdeal := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq, (hagree c).1, (hagree c).2.1, (hagree c).2.2.1,
    (hagree c).2.2.2.1, (hagree c).2.2.2.2]
  obtain ⟨hA, hX, hW⟩ := Cert.KernelIdeal.Hand.finite_of_pre m hpre c
  exact (Cert.GcnSpec.outKer_eq_outRef _ _ _ _ _ hA hX hW).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
